-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1024 .f32) (main_arg1 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1024#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x1024 : Shape := ⟨2, ![65536, 1024]⟩
abbrev S65536 : Shape := ⟨1, ![65536]⟩
abbrev S2048x1024 : Shape := ⟨2, ![2048, 1024]⟩
abbrev S2048 : Shape := ⟨1, ![2048]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S65536, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048, .i32⟩
  | .local _ .vmem, ⟨3, _⟩ => ⟨S2048, .i32⟩
  | .local _ .vmem, ⟨4, _⟩ => ⟨S2048, .f32⟩
  | .local _ .vmem, ⟨5, _⟩ => ⟨S2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v1 : BitVec 32 := Scalar.muli c0_i32 c512_i32
  v1
def k0_off1 (c0_i32 : BitVec 32) : Fin 2 → Nat :=
  let c512_i32 : BitVec 32 := 512#32
  let v1 : BitVec 32 := Scalar.muli c0_i32 c512_i32
  let v2 : BitVec 32 := v1
  let v3 : Index := Scalar.indexCast v2
  let c0 : Index := 0#32
  ![v3.toNat, 0]
def k0_off2 (c0_i32 : BitVec 32) : Fin 1 → Nat :=
  let c512_i32 : BitVec 32 := 512#32
  let v1 : BitVec 32 := Scalar.muli c0_i32 c512_i32
  let v2 : BitVec 32 := v1
  let v5 : Index := Scalar.indexCast v2
  ![v5.toNat]
def k0_mult2 : BitVec 32 :=
  let c1_i32 : BitVec 32 := 1#32
  let c512_i32_8 : BitVec 32 := 512#32
  let v37 : BitVec 32 := Scalar.muli c1_i32 c512_i32_8
  v37
def k0_mult3 : BitVec 32 :=
  let c2_i32 : BitVec 32 := 2#32
  let c512_i32_19 : BitVec 32 := 512#32
  let v73 : BitVec 32 := Scalar.muli c2_i32 c512_i32_19
  v73
def k0_mult4 : BitVec 32 :=
  let c3_i32 : BitVec 32 := 3#32
  let c512_i32_30 : BitVec 32 := 512#32
  let v109 : BitVec 32 := Scalar.muli c3_i32 c512_i32_30
  v109
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  iota_S512x1024_d1_w32 : S512x1024.Iotas .tc 32 [1]
  h_S512x1024 : 0 < S512x1024.numel
  h_S512 : 0 < S512.numel
  shapeCasts_S512_S512x1 : S512.ShapeCasts S512x1
  broadcasts_S512x1_S512x1024 : S512x1.Broadcasts S512x1024
  natLt_1_32 : 1 < 32
  reduces_S512x1024_S512 : S512x1024.Reduces [1] S512
  reducesTo_S65536_S_d0 : S65536.ReducesTo [0] S_
  h_S_ : 0 < S_.numel
  hrank0 : 0 < grid0.rank
  k0_mult1_dvd : 512 ∣ k0_mult1.toNat
  k0_off1_inb : ∀ (r : Fin 4), ∀ a, (k0_off1 (BitVec.ofNat 32 r.val)) a + S512x1024.size a ≤ S2048x1024.size a
  k0_off2_inb : ∀ (r : Fin 4), ∀ a, (k0_off2 (BitVec.ofNat 32 r.val)) a + S512.size a ≤ S2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S65536.size a
  hwx0_1 : ∀ i : grid0.Coords, EltTy.bits .i32 = 32 ∨ (Rect.block (s := S65536) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S65536.size a
  hwx0_2 : ∀ i : grid0.Coords, EltTy.bits .f32 = 32 ∨ (Rect.block (s := S65536) S2048.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S65536x1 : Shape := ⟨2, ![65536, 1]⟩
abbrev S_ : Shape := ⟨0, ![]⟩
abbrev S65536x1x1 : Shape := ⟨3, ![65536, 1, 1]⟩
abbrev S1 : Shape := ⟨1, ![1]⟩
abbrev S1x1x1 : Shape := ⟨3, ![1, 1, 1]⟩
abbrev S1024 : Shape := ⟨1, ![1024]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S65536x1, .i32⟩
  | .hbm, ⟨3, _⟩ => ⟨S_, .i32⟩
  | .hbm, ⟨4, _⟩ => ⟨S65536x1, .i32⟩
  | .hbm, ⟨5, _⟩ => ⟨S65536x1, .i1⟩
  | .hbm, ⟨6, _⟩ => ⟨S_, .i32⟩
  | .hbm, ⟨7, _⟩ => ⟨S65536x1, .i32⟩
  | .hbm, ⟨8, _⟩ => ⟨S65536x1, .i32⟩
  | .hbm, ⟨9, _⟩ => ⟨S65536x1, .i32⟩
  | .hbm, ⟨10, _⟩ => ⟨S65536x1x1, .i32⟩
  | .hbm, ⟨11, _⟩ => ⟨S1, .i32⟩
  | .hbm, ⟨12, _⟩ => ⟨S_, .i32⟩
  | .hbm, ⟨13, _⟩ => ⟨S65536x1x1, .i32⟩
  | .hbm, ⟨14, _⟩ => ⟨S65536x1x1, .i1⟩
  | .hbm, ⟨15, _⟩ => ⟨S1x1x1, .i32⟩
  | .hbm, ⟨16, _⟩ => ⟨S65536x1x1, .i32⟩
  | .hbm, ⟨17, _⟩ => ⟨S65536x1x1, .i1⟩
  | .hbm, ⟨18, _⟩ => ⟨S65536x1x1, .i1⟩
  | .hbm, ⟨19, _⟩ => ⟨S_, .i1⟩
  | .hbm, ⟨20, _⟩ => ⟨S65536x1, .i1⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536, .f32⟩
  | .hbm, ⟨26, _⟩ => ⟨S_, .f32⟩
  | .hbm, ⟨27, _⟩ => ⟨S65536, .f32⟩
  | .hbm, ⟨28, _⟩ => ⟨S65536, .f32⟩
  | .hbm, ⟨29, _⟩ => ⟨S_, .f32⟩
  | .hbm, ⟨30, _⟩ => ⟨S65536, .f32⟩
  | .hbm, ⟨31, _⟩ => ⟨S65536, .f32⟩
  | .hbm, ⟨32, _⟩ => ⟨S65536, .f32⟩
  | .hbm, ⟨33, _⟩ => ⟨S65536, .f32⟩
  | .hbm, ⟨34, _⟩ => ⟨S65536x1, .i32⟩
  | .hbm, ⟨35, _⟩ => ⟨S1024, .i32⟩
  | .hbm, ⟨36, _⟩ => ⟨S1x1024, .i32⟩
  | .hbm, ⟨37, _⟩ => ⟨S65536x1024, .i32⟩
  | .hbm, ⟨38, _⟩ => ⟨S65536x1024, .i32⟩
  | .hbm, ⟨39, _⟩ => ⟨S65536x1024, .i1⟩
  | .hbm, ⟨40, _⟩ => ⟨S_, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S_, .i32⟩
  | .hbm, ⟨47, _⟩ => ⟨S65536, .i32⟩
  | .hbm, ⟨48, _⟩ => ⟨S65536, .i1⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S_, .f32⟩
  | .hbm, ⟨53, _⟩ => ⟨S65536, .f32⟩
  | .hbm, ⟨54, _⟩ => ⟨S65536, .f32⟩
  | .hbm, ⟨55, _⟩ => ⟨S_, .f32⟩
  | .hbm, ⟨56, _⟩ => ⟨S65536, .f32⟩
  | .hbm, ⟨57, _⟩ => ⟨S65536, .f32⟩
  | .hbm, ⟨58, _⟩ => ⟨S65536, .f32⟩
  | .hbm, ⟨59, _⟩ => ⟨S65536, .f32⟩
  | .hbm, ⟨60, _⟩ => ⟨S65536, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_call2_v0 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩
abbrev main_cst_7 : Ref sig .tc := ⟨.hbm, 63, rfl⟩
abbrev main_v28 : Ref sig .tc := ⟨.hbm, 64, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  h_S_ : 0 < S_.numel
  shapeCasts_S65536x1_S65536 : S65536x1.ShapeCasts S65536
  bcast_S_S65536 : S_.BroadcastsInDim S65536 (![] : Fin 0 → Fin S65536.rank)
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  reducesTo_S65536x1024_S65536_d1 : S65536x1024.ReducesTo [1] S65536
  reducesTo_S65536_S_d0 : S65536.ReducesTo [0] S_
  gather_S65536x1024_S65536x1x1_S65536x1_n_1_0_0_1_2_11_wf : GatherDims.WF S65536x1024 S65536x1x1 S65536x1 [] [1] [0] [1] [0] 2 ![1, 1]

variable [Facts₀]

def gather_S65536x1024_S65536x1x1_S65536x1_n_1_0_0_1_2_11 : GatherDims S65536x1024 S65536x1x1 S65536x1 where
  offsetDims := []
  collapsedSliceDims := [1]
  operandBatchingDims := [0]
  startIndicesBatchingDims := [0]
  startIndexMap := [1]
  indexVectorDim := 2
  sliceSizes := ![1, 1]
  wf := gather_S65536x1024_S65536x1x1_S65536x1_n_1_0_0_1_2_11_wf

class Facts : Prop extends Facts₀ where

variable [Facts]
-- ==== Proof.PreRange.lean ====
/-
  The label range, read off the precondition.

  The precondition is the conjunction of "every score is finite" and "every label `l` satisfies `0 ≤ l` and
  `l < 1024`" (signed compares, an `and`, a reduce by `and` over all 65536 labels from the bit 1). When its
  value is the bit 1, every label is therefore a signed number in `[0, 1024)`, which as an unsigned word says
  `l.toNat < 1024`. Only this half of the precondition is used by the equivalence: the row statistics are equal
  on all extended reals.
-/
import proofs.«402806_j11012296147722_3_alg».proof.Pre_finite_inputs
import Idealize.ShloMosaic.Lib.ReduceAll
import Idealize.ShloMosaic.Lib.Affine
import Idealize.ShloMosaic.Lib.StableHlo.Predicate
import Idealize.ShloMosaic.Lib.ValueIdx

noncomputable section

namespace Cert.Pre_finite_inputs.Range

open Idealize.ShloMosaic Cert.Pre_finite_inputs

instance : Subsingleton S_.Idx := ⟨fun a b => funext fun d => d.elim0⟩

/-- A word that is signed-nonnegative and signed-below 1024 is, unsigned, below 1024. -/
theorem toNat_lt_of_signed (l : BitVec 32) (h0 : (0#32 : BitVec 32).toInt ≤ l.toInt) (h1 : l.toInt < (1024#32 : BitVec 32).toInt) :
    l.toNat < 1024 := by
  have hz : (0#32 : BitVec 32).toInt = 0 := by decide
  have hk : (1024#32 : BitVec 32).toInt = 1024 := by decide
  rw [hz] at h0; rw [hk] at h1
  have := BitVec.toInt_eq_toNat_cond l
  have hl := l.isLt
  split at this <;> omega

/-- Where the precondition holds, every label names one of the 1024 columns. -/
theorem label_range {F : FTy → Type} [FloatOps F] [Cert.Pre_finite_inputs.Facts]
    (X : FVec F S65536x1024 .f32) (lab : IVec S65536 32) (h : fn (F := F) X lab = fun _ => 1#1) (r : S65536.Idx) :
    (lab r).toNat < 1024 := by
  have h0 := congrFun h ValueIdx.ix0
  dsimp only [fn] at h0
  obtain ⟨-, h9⟩ := IntOp.andi_eq_one.1 h0
  have h8 := Host.reduce_andi_all _ _ _ _ _ h9 r
  obtain ⟨hge, hlt⟩ := IntOp.andi_eq_one.1 h8
  have hge' : IntOp.cmpi .sge (lab r) 0#32 = 1#1 := by
    have := hge
    simp only [cmpi, StableHlo.Predicate.bcast_scalar, constantI] at this
    exact this
  have hlt' : IntOp.cmpi .slt (lab r) 1024#32 = 1#1 := by
    have := hlt
    simp only [cmpi, StableHlo.Predicate.bcast_scalar, constantI] at this
    exact this
  exact toNat_lt_of_signed _ (IntOp.cmpi_sge.1 hge') (IntOp.cmpi_slt.1 hlt')

end Cert.Pre_finite_inputs.Range

end
-- ==== Proof.RowLoss.lean ====
/-
  One row of the ranking loss, on the extended reals.

  A row is 1024 scores `x k` and one label word `l` naming a column. The loss of the row is
      log(1 + exp(2 (5/2 - s⁺))) + log(1 + exp(2 (1/2 + s⁻)))
  where `s⁺ = x l` is the score of the labelled column and `s⁻` is the largest score OFF the labelled column,
  replaced by 0 when the label is column 0. The three constants stay the f32 words both programs carry: they
  are never evaluated.

  Two spellings of the same two statistics meet here.
  * The score of the labelled column as a sum: with `μ k` the indicator of "column k is the label" (1 on the
    label, 0 elsewhere), `∑ k, x k * μ k = x l`, since every other term is `x k * 0 = 0` on the extended
    reals (also for an infinite `x k`) — provided the label names one of the 1024 columns.
  * The largest score off the label as a masked maximum: `x k + μ k * (-∞)` is `-∞` on the label
    (`x + (-∞) = -∞` for every extended real) and `x k + 0 * (-∞) = x k + 0 = x k` elsewhere, so its maximum
    over the row is the maximum of the row with the label's column struck out.
-/
import Idealize.ShloMosaic.PureOps.Ideal
import Idealize.ShloMosaic.Lib.StableHlo.Predicate
import Idealize.ShloMosaic.Lib.ValueIdx

noncomputable section

open scoped BigOperators

namespace Cert.RankLoss

open Idealize.ShloMosaic

/-- Column `k`'s index as a 32-bit word. -/
abbrev colWord (k : Fin 1024) : BitVec 32 := BitVec.ofNat 32 k.val

/-- The score at the labelled column: the label read as a signed number and kept inside the row. -/
def rowPos (x : Fin 1024 → EReal) (l : BitVec 32) : EReal := x ⟨min l.toInt.toNat 1023, by omega⟩

/-- The largest score off the labelled column: the row's maximum with the label's column at `-∞`. -/
def rowNeg (x : Fin 1024 → EReal) (l : BitVec 32) : EReal :=
  (Finset.univ : Finset (Fin 1024)).fold max ⊥ (fun k => if colWord k = l then ⊥ else x k)

/-- The loss of one row. -/
def rowLoss (x : Fin 1024 → EReal) (l : BitVec 32) : EReal :=
  Ideal.log1p (Ideal.exp (Ideal.ofBits .f32 0x40000000#32 * (Ideal.ofBits .f32 0x40200000#32 - rowPos x l)))
    + Ideal.log1p (Ideal.exp (Ideal.ofBits .f32 0x40000000#32 *
        (Ideal.ofBits .f32 0x3F000000#32 + (if l = 0#32 then Ideal.ofBits .f32 0x00000000#32 else rowNeg x l))))

/-- The 65536 row losses of a score table and a label vector: entry `i` is the loss of row `i`. -/
def perRow (X : FVec Ideal ⟨2, ![65536, 1024]⟩ .f32) (lab : IVec ⟨1, ![65536]⟩ 32) : FVec Ideal ⟨1, ![65536]⟩ .f32 :=
  fun i => rowLoss (fun k => X (ValueIdx.ix2 (n0 := 65536) (i 0) k)) (lab i)

/-- The mean of the 65536 row losses, as both programs take it on the host: their sum from the word of 0, divided
    by the word of 65536. -/
def meanOf (v : FVec Ideal ⟨1, ![65536]⟩ .f32) : FVec Ideal ⟨0, ![]⟩ .f32 :=
  Host.divf
    (Host.reduceAdd (axes := [0]) (t := ⟨0, ![]⟩) (u := ⟨0, ![]⟩) v (constant (F := Ideal) ⟨0, ![]⟩ .f32 0x00000000#32)
      (by decide) (by decide))
    (constant (F := Ideal) ⟨0, ![]⟩ .f32 0x47800000#32)

/-- The f32 word of `-∞` is `-∞`. -/
theorem ofBits_neg_inf : Ideal.ofBits .f32 0xFF800000#32 = ⊥ := by simp [Ideal.ofBits, Ideal.ieee]

/-- A one-bit word is 0 or 1. -/
theorem bit_cases (v : BitVec 1) : v = 1#1 ∨ v = 0#1 := by
  revert v; decide

/-- The indicator of "a = b", computed as the kernel does (compare, widen the bit to a word, read the word as a
    number), is 1 or 0. -/
theorem indicator_val (a b : BitVec 32) :
    ((((IntOp.cmpi .eq a b).setWidth 32).toInt : ℝ) : EReal) = if a = b then 1 else 0 := by
  by_cases h : a = b
  · have e : IntOp.cmpi .eq a b = 1#1 := StableHlo.Predicate.cmpi_eq_iff.mpr h
    rw [e, if_pos h]
    have : ((1#1 : BitVec 1).setWidth 32).toInt = 1 := by decide
    rw [this]; simp
  · have e : IntOp.cmpi .eq a b = 0#1 := by
      rcases bit_cases (IntOp.cmpi .eq a b) with e | e
      · exact absurd (StableHlo.Predicate.cmpi_eq_iff.mp e) h
      · exact e
    rw [e, if_neg h]
    have : ((0#1 : BitVec 1).setWidth 32).toInt = 0 := by decide
    rw [this]; simp

/-- A select on "the label is column 0" is the `if`. -/
theorem select_label_zero {α : Type} (l : BitVec 32) (A B : α) :
    Scalar.select (IntOp.cmpi .eq l 0#32) A B = if l = 0#32 then A else B := by
  unfold Scalar.select
  have e : (IntOp.cmpi .eq l 0#32 = 1) ↔ l = 0#32 := StableHlo.Predicate.cmpi_eq_iff
  simp only [e]

/-- A select on "a = b" is the `if`. -/
theorem select_eq {α : Type} (a b : BitVec 32) (A B : α) :
    Scalar.select (IntOp.cmpi .eq a b) A B = if a = b then A else B := by
  unfold Scalar.select
  have e : (IntOp.cmpi .eq a b = 1) ↔ a = b := StableHlo.Predicate.cmpi_eq_iff
  simp only [e]

/-- A label naming one of the 1024 columns, read signed and kept inside the row, is itself. -/
theorem clamp_label (l : BitVec 32) (hl : l.toNat < 1024) : min l.toInt.toNat 1023 = l.toNat := by
  have h : l.toInt = (l.toNat : ℤ) := StableHlo.Predicate.toInt_eq_toNat_of_lt (by omega)
  rw [h, Int.toNat_natCast]; omega

/-- The indicator sum picks the labelled score: every other term is `x k * 0 = 0`. -/
theorem sum_indicator (x : Fin 1024 → EReal) (l : BitVec 32) (hl : l.toNat < 1024) :
    ∑ k : Fin 1024, x k * ((((IntOp.cmpi .eq (colWord k) l).setWidth 32).toInt : ℝ) : EReal) = rowPos x l := by
  simp only [indicator_val]
  rw [Finset.sum_eq_single (⟨l.toNat, hl⟩ : Fin 1024)]
  · have e : colWord ⟨l.toNat, hl⟩ = l := by
      show BitVec.ofNat 32 l.toNat = l
      apply BitVec.eq_of_toNat_eq
      rw [BitVec.toNat_ofNat]
      exact Nat.mod_eq_of_lt l.isLt
    rw [if_pos e, mul_one]
    unfold rowPos
    congr 1
    exact Fin.ext (clamp_label l hl).symm
  · intro k _ hk
    have ne : colWord k ≠ l := by
      intro e
      apply hk
      apply Fin.ext
      have h1 : (colWord k).toNat = k.val := by
        show (BitVec.ofNat 32 k.val).toNat = k.val
        rw [BitVec.toNat_ofNat]
        exact Nat.mod_eq_of_lt (by have := k.isLt; omega)
      show k.val = l.toNat
      rw [← h1, e]
    rw [if_neg ne, mul_zero]
  · intro h; exact absurd (Finset.mem_univ _) h

/-- The masked maximum is the row's maximum off the label: adding `1 * (-∞)` sinks the label's column and adding
    `0 * (-∞) = 0` leaves every other one. -/
theorem fold_masked (x : Fin 1024 → EReal) (l : BitVec 32) :
    (Finset.univ : Finset (Fin 1024)).fold max ⊥
      (fun k => x k + ((((IntOp.cmpi .eq (colWord k) l).setWidth 32).toInt : ℝ) : EReal) * ⊥) = rowNeg x l := by
  unfold rowNeg
  congr 1
  funext k
  rw [indicator_val]
  by_cases h : colWord k = l
  · rw [if_pos h, if_pos h, one_mul, EReal.add_bot]
  · rw [if_neg h, if_neg h, zero_mul, add_zero]

end Cert.RankLoss

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KernelChunk.lean ====
/-
  What the kernel's body stores for one slab of 512 rows, at the ideal values.

  The body cuts its 2048-row block into four slabs of 512 rows and stores, for each, the 512 row losses.
  The four stores spell one function of the slab's scores `x : [512, 1024]` and labels `l : [512]`; the
  printed program only cuts the text at different places (the later slabs name the column-indicator, the row
  sum and the masked maximum before they use them). Read at row `p`:
  * the column indicator `μ (p, k)` is "k = l p" — compare the lane iota with the label spread along the row,
    widen the bit, convert to a float — so it is 1 on the label's column and 0 elsewhere;
  * `∑ k, x (p, k) * μ (p, k)` is the labelled score;
  * `max k, x (p, k) + μ (p, k) * neg_big`, with `neg_big` read as `-∞`, is the largest score off the label;
  and the row's stored value is the row loss of `RowLoss.lean`.
-/
import proofs.«402806_j11012296147722_3_alg».proof.Proof.Gen.KernelIdeal.Skeleton
import proofs.«402806_j11012296147722_3_alg».proof.Proof.RowLoss
import proofs.«402806_j11012296147722_3_alg».proof.Proof.LibColumn
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Chunk

open Idealize.ShloMosaic Idealize.ShloMosaic.ValueIdx Cert.KernelIdeal Cert.KernelIdeal.Gen Cert.RankLoss

/-! ## The four stores are one function of the slab -/

section OneFunction

variable {F : FTy → Type} [FloatOps F] [Named F]

/-- The lane iota the body builds once and hands to the later slabs. -/
abbrev lanes : IVec S512x1024 32 := iota .tc S512x1024 32 [1] iota_S512x1024_d1_w32

/-- The second slab's store is the first slab's function. -/
theorem pay3_eq (x : Vec F S512x1024 .f32) (l : Vec F S512 .i32) : k0_pay3 lanes x l = k0_pay2 x l := rfl

/-- The third slab's store, its row sum and its mask product named earlier, is the first slab's function. -/
theorem pay7_eq (x : Vec F S512x1024 .f32) (l : Vec F S512 .i32) :
    k0_pay7 x l (k0_pay5 lanes x l) (k0_pay6 lanes l) = k0_pay2 x l := rfl

/-- The fourth slab's store, its row sum and its masked maximum named earlier, is the first slab's function. -/
theorem pay1_eq (x : Vec F S512x1024 .f32) (l : Vec F S512 .i32) :
    k0_pay1 (k0_pay9 lanes x l) (k0_pay10 lanes x l) (k0_pay11 (F := F)) = k0_pay2 x l := rfl

end OneFunction

/-! ## The two row reductions at a row -/

/-- A row sum of a `[512, 1024]` slab, at row `p`: the sum over the row's 1024 columns. -/
theorem rowsum_apply (src : FVec Ideal S512x1024 .f32) (h : S512x1024.Reduces [1] S512) (hφ : FTy.f32 = FTy.f32 ∨ FTy.f32 = FTy.bf16)
    (hacc : (0x00000000#32 : BitVec 32) = 0x00000000#32) (p : Fin 512) :
    multiReduction .add [1] S512 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a
  match a with
  | ⟨0, _⟩ => exact Fin.ext rfl
  | ⟨1, _⟩ => exact Fin.ext rfl

/-- A row maximum of a `[512, 1024]` slab from `-∞`, at row `p`: the maximum over the row's 1024 columns. -/
theorem rowmax_apply (src : FVec Ideal S512x1024 .f32) (h : S512x1024.Reduces [1] S512) (hφ : FTy.f32 = FTy.f32 ∨ FTy.f32 = FTy.bf16)
    (hacc : (0xFF800000#32 : BitVec 32) = 0xFF800000#32) (p : Fin 512) :
    multiReduction .maximumf [1] S512 src 0xFF800000#32 h hφ hacc (ix1 p)
      = (Finset.univ : Finset (Fin 1024)).fold max ⊥ (fun k => src (ix2 p k)) := by
  refine (Ideal.multiReduction_maximumf_single src 0xFF800000#32 h hφ hacc (ix1 p)).trans ?_
  rw [Ideal.ofBits_def, ofBits_neg_inf]
  refine congrArg ((Finset.univ : Finset (Fin 1024)).fold max ⊥) ?_
  funext k
  refine congrArg src ?_
  funext a
  match a with
  | ⟨0, _⟩ => exact Fin.ext rfl
  | ⟨1, _⟩ => exact Fin.ext rfl

/-! ## The column indicator at (p, k) -/

/-- The label spread along its row, at `(p, k)`, is row `p`'s label. -/
theorem label_spread (l : IVec S512 32) (p : Fin 512) (k : Fin 1024) :
    broadcastTo S512x1024 (shapeCast S512x1 l shapeCasts_S512_S512x1) broadcasts_S512x1_S512x1024 (ix2 p k) = l (ix1 p) := by
  rw [Cert.Attn.Column.broadcastTo_a1_ab_apply, Cert.Attn.Column.shapeCast_a_a1_apply]

/-- The lane iota at `(p, k)` is column `k`'s word. -/
theorem lanes_apply (p : Fin 512) (k : Fin 1024) : lanes (ix2 p k) = colWord k := by
  unfold lanes
  rw [iota_single_apply]

/-- The named sentinel is `-∞` at the ideal values. -/
theorem neg_big_eq : Named.named (F := Ideal) κ "neg_big" (φ := .f32) 0xF149F2CA#32 = (⊥ : EReal) :=
  IdealRules.named_const.ideal_named_scalar _ _ _ _ rfl

/-- The column indicator of a slab, as the body computes it: compare the lane iota with the label spread along the
    row, widen the bit, convert to a float. -/
abbrev indicator (l : IVec S512 32) : FVec Ideal S512x1024 .f32 :=
  sitofp .f32 (extui 32 (cmpi .eq lanes
    (broadcastTo S512x1024 (shapeCast S512x1 l shapeCasts_S512_S512x1) broadcasts_S512x1_S512x1024)) natLt_1_32)

/-- At `(p, k)` it is the indicator of "column k is row p's label". -/
theorem indicator_apply (l : IVec S512 32) (p : Fin 512) (k : Fin 1024) :
    indicator l (ix2 p k) = ((((IntOp.cmpi .eq (colWord k) (l (ix1 p))).setWidth 32).toInt : ℝ) : EReal) := by
  show ((((IntOp.cmpi .eq (lanes (ix2 p k))
    (broadcastTo S512x1024 (shapeCast S512x1 l shapeCasts_S512_S512x1) broadcasts_S512x1_S512x1024 (ix2 p k))).setWidth 32).toInt : ℝ) : EReal) = _
  rw [lanes_apply, label_spread]

/-! ## One slab's store at a row -/

/-- At row `p` of a slab whose label there names one of the 1024 columns, the body stores the row's loss. -/
theorem pay2_apply (x : FVec Ideal S512x1024 .f32) (l : IVec S512 32) (p : Fin 512) (hl : (l (ix1 p)).toNat < 1024) :
    k0_pay2 (F := Ideal) x l (ix1 p) = rowLoss (fun k => x (ix2 p k)) (l (ix1 p)) := by
  have e1 : (∑ k : Fin 1024, mulf x (indicator l) (ix2 p k)) = rowPos (fun k => x (ix2 p k)) (l (ix1 p)) := by
    refine Eq.trans (Finset.sum_congr rfl fun k _ => ?_) (sum_indicator (fun k => x (ix2 p k)) (l (ix1 p)) hl)
    show x (ix2 p k) * indicator l (ix2 p k) = _
    rw [indicator_apply]
  have e2 : (Finset.univ : Finset (Fin 1024)).fold max ⊥
      (fun k => addf x (mulf (indicator l) (broadcast S512x1024 (⊥ : EReal))) (ix2 p k))
        = rowNeg (fun k => x (ix2 p k)) (l (ix1 p)) := by
    refine Eq.trans (congrArg ((Finset.univ : Finset (Fin 1024)).fold max ⊥) (funext fun k => ?_))
      (fold_masked (fun k => x (ix2 p k)) (l (ix1 p)))
    show x (ix2 p k) + indicator l (ix2 p k) * ⊥ = _
    rw [indicator_apply]
  unfold k0_pay2 rowLoss
  simp only [addf, subf, mulf, log1p, exp, select, cmpi, broadcast, neg_big_eq, select_label_zero,
    Ideal.addf_def, Ideal.subf_def, Ideal.mulf_def, Ideal.log1p_def, Ideal.exp_def, Ideal.ofBits_def]
  rw [rowsum_apply, rowmax_apply]
  exact congrArg₂ (fun s n => Ideal.log1p (Ideal.exp (Ideal.ofBits .f32 0x40000000#32 * (Ideal.ofBits .f32 0x40200000#32 - s)))
      + Ideal.log1p (Ideal.exp (Ideal.ofBits .f32 0x40000000#32 * (Ideal.ofBits .f32 0x3F000000#32 +
          (if l (ix1 p) = 0#32 then Ideal.ofBits .f32 0x00000000#32 else n))))) e1 e2

end Cert.KernelIdeal.Chunk

end
-- ==== Proof.KernelBlock.lean ====
/-
  What the kernel's body leaves in its output block, at the ideal values.

  At one grid point the body holds a block of 2048 rows of scores and their 2048 labels, and fills the 2048-entry
  output block by four stores, one per slab of 512 rows: store `s` covers entries `512 s … 512 s + 511` and its
  payload is the slab function of `KernelChunk.lean` of rows `512 s …` of the block. Every store is therefore a
  restriction of ONE function of the block index — entry `y` is the loss of row `y` of the block — and the four
  rectangles tile the block, so that function is what the block holds (the canon of pieces that all agree with one
  function). Each label of the block is assumed to name one of the 1024 columns.
-/
import proofs.«402806_j11012296147722_3_alg».proof.Proof.Gen.KernelIdeal.Frame
import proofs.«402806_j11012296147722_3_alg».proof.Proof.KernelChunk
import Idealize.ShloMosaic.Lib.Pipeline.Value

set_option maxRecDepth 16384

noncomputable section

namespace Cert.KernelIdeal.Block

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Chunk Cert.RankLoss

/-- The 2048 row losses of one block of scores and labels. -/
def blockLoss (x0 : FVec Ideal S2048x1024 .f32) (x1 : IVec S2048 32) : S2048.Idx → EReal :=
  fun y => rowLoss (fun k => x0 (ix2 (n0 := 2048) (y 0) k)) (x1 y)

/-- On a block whose labels each name one of the 1024 columns, the four stores leave the block's 2048 row losses:
    each store's payload at its local row `q` is the loss of block row `512 s + q`, and the stores tile the block. -/
theorem out_eq (c : Dev nD) (i : grid0.Coords) (arg1 : Memref sig .tc .vmem S2048x1024 .f32) (harg1 : arg1.IsWhole)
    (arg2 : Memref sig .tc .vmem S2048 .i32) (harg2 : arg2.IsWhole) (arg3 : Memref sig .tc .vmem S2048 .f32) (harg3 : arg3.IsWhole)
    (x0 : Vec Ideal S2048x1024 .f32) (x1 : Vec Ideal S2048 .i32) (hx1 : ∀ y, (x1 y).toNat < 1024) :
    out0_A_2 (F := Ideal) c i arg1 harg1 arg2 harg2 arg3 harg3 x0 x1 = blockLoss x0 x1 := by
  unfold out0_A_2
  rw [View.read_writes_eq_canon _ _ _ (cover0_A_2 c i arg1 harg1 arg2 harg2 arg3 harg3 x0 x1)]
  funext y
  refine View.canon_apply_of_pieces (blockLoss x0 x1) _ ?_ y (cover0_A_2 c i arg1 harg1 arg2 harg2 arg3 harg3 x0 x1 y)
  unfold kernelRun0_A
  dsimp only
  sl_unfold_words
  simp only [View.readAt_eq_ld, harg1.read_unread, harg2.read_unread]
  intro pc hpc
  simp only [List.mem_cons, List.not_mem_nil, or_false] at hpc
  rcases hpc with rfl | rfl | rfl | rfl
  · intro x
    obtain ⟨q, rfl⟩ : ∃ q : Fin 512, x = ix1 q := ⟨x 0, eq_ix1 x⟩
    dsimp only
    rw [pay1_eq]
    rw [pay2_apply _ _ q (hx1 _)]
    unfold blockLoss
    refine congrArg₂ rowLoss (funext fun k => congrArg x0 ?_) (congrArg x1 ?_)
    · funext a
      match a with
      | ⟨0, _⟩ => exact Fin.ext rfl
      | ⟨1, _⟩ => exact Fin.ext (by show 0 + 1 * k.val = k.val; omega)
    · rfl
  · intro x
    obtain ⟨q, rfl⟩ : ∃ q : Fin 512, x = ix1 q := ⟨x 0, eq_ix1 x⟩
    dsimp only
    rw [pay7_eq]
    rw [pay2_apply _ _ q (hx1 _)]
    unfold blockLoss
    refine congrArg₂ rowLoss (funext fun k => congrArg x0 ?_) (congrArg x1 ?_)
    · funext a
      match a with
      | ⟨0, _⟩ => exact Fin.ext rfl
      | ⟨1, _⟩ => exact Fin.ext (by show 0 + 1 * k.val = k.val; omega)
    · rfl
  · intro x
    obtain ⟨q, rfl⟩ : ∃ q : Fin 512, x = ix1 q := ⟨x 0, eq_ix1 x⟩
    dsimp only
    rw [pay3_eq]
    rw [pay2_apply _ _ q (hx1 _)]
    unfold blockLoss
    refine congrArg₂ rowLoss (funext fun k => congrArg x0 ?_) (congrArg x1 ?_)
    · funext a
      match a with
      | ⟨0, _⟩ => exact Fin.ext rfl
      | ⟨1, _⟩ => exact Fin.ext (by show 0 + 1 * k.val = k.val; omega)
    · rfl
  · intro x
    obtain ⟨q, rfl⟩ : ∃ q : Fin 512, x = ix1 q := ⟨x 0, eq_ix1 x⟩
    dsimp only
    rw [pay2_apply _ _ q (hx1 _)]
    unfold blockLoss
    refine congrArg₂ rowLoss (funext fun k => congrArg x0 ?_) (congrArg x1 ?_)
    · funext a
      match a with
      | ⟨0, _⟩ => exact Fin.ext rfl
      | ⟨1, _⟩ => exact Fin.ext (by show 0 + 1 * k.val = k.val; omega)
    · rfl

end Cert.KernelIdeal.Block

end
-- ==== Proof.KernelArr.lean ====
/-
  What the kernel's per-row array and its result hold after the run, at the ideal values.

  The grid has 32 points; point `t` fetches rows `2048 t … 2048 t + 2047` of the scores and of the labels and writes
  back rows `2048 t …` of the per-row array. By `KernelBlock.lean` the block point `t` writes back is, entry by entry,
  the row loss of the matching row of the arguments, that is block `t` of ONE function of the array index: entry `i`
  is the loss of row `i`. The 32 blocks tile the 65536 entries (entry `i` lies in block `i / 2048`), so the array
  ends holding that function; the host lines after the region sum it from 0 and divide by 65536.
-/
import proofs.«402806_j11012296147722_3_alg».proof.Proof.Gen.KernelIdeal.Frame
import proofs.«402806_j11012296147722_3_alg».proof.Proof.KernelBlock
import Idealize.ShloMosaic.Lib.Pipeline.Value
import Idealize.ShloMosaic.Lib.StableHlo.Run

set_option maxRecDepth 16384

noncomputable section

namespace Cert.KernelIdeal.ArrValue

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Block Cert.RankLoss

variable (m : (ℓ : Loc nD τ sig) → Buf (Elt Ideal) ℓ) (ρ : Dev nD → PrngReg)

/-- The two argument arrays as the region finds them, and their blocks at a grid point, at their literal types. -/
abbrev scores (c : Dev nD) : FVec Ideal S65536x1024 .f32 := V m c main_arg0
abbrev labels (c : Dev nD) : IVec S65536 32 := V m c main_arg1
abbrev sblk (c : Dev nD) (t : Fin cfg0.N) : FVec Ideal S2048x1024 .f32 := iblk m c 0 t
abbrev lblk (c : Dev nD) (t : Fin cfg0.N) : IVec S2048 32 := iblk m c 1 t

/-- The printed index maps, decided over the grid: every window's block index at point `t` is `t` (and 0 along the
    columns). -/
theorem idx_facts : ∀ t : Fin cfg0.N, win0_0.index t (0 : Fin 2) = t.val ∧ win0_0.index t (1 : Fin 2) = 0
    ∧ win0_1.index t (0 : Fin 1) = t.val ∧ win0_2.index t (0 : Fin 1) = t.val :=
  (by decide +kernel : ∀ t : Fin grid0.N, _)

/-- Row `p` of the score block at point `t` is row `2048 t + p` of the scores. -/
theorem sblk_apply (c : Dev nD) (t : Fin cfg0.N) (x : S2048x1024.Idx) (k : S65536x1024.Idx)
    (hk0 : (k 0).val = 2048 * t.val + (x 0).val) (hk1 : (k 1).val = (x 1).val) :
    sblk m c t x = scores m c k := by
  obtain ⟨e0, e1, -, -⟩ := idx_facts t
  show ((cfg0.win 0).blk t).view.read (Elt Ideal) (V m c (Pipeline.arrRef spec0 0)) x = _
  rw [View.read_apply]
  show V m c main_arg0 _ = V m c main_arg0 _
  congr 1
  funext a
  apply Fin.ext
  match a with
  | ⟨0, _⟩ => show win0_0.index t 0 * 2048 + 1 * (x 0).val = (k 0).val; rw [e0, hk0]; omega
  | ⟨1, _⟩ => show win0_0.index t 1 * 1024 + 1 * (x 1).val = (k 1).val; rw [e1, hk1]; omega

/-- Entry `p` of the label block at point `t` is label `2048 t + p`. -/
theorem lblk_apply (c : Dev nD) (t : Fin cfg0.N) (x : S2048.Idx) (k : S65536.Idx)
    (hk0 : (k 0).val = 2048 * t.val + (x 0).val) :
    lblk m c t x = labels m c k := by
  obtain ⟨-, -, e2, -⟩ := idx_facts t
  show ((cfg0.win 1).blk t).view.read (Elt Ideal) (V m c (Pipeline.arrRef spec0 1)) x = _
  rw [View.read_apply]
  show V m c main_arg1 _ = V m c main_arg1 _
  congr 1
  funext a
  apply Fin.ext
  match a with
  | ⟨0, _⟩ => show win0_1.index t 0 * 2048 + 1 * (x 0).val = (k 0).val; rw [e2, hk0]; omega

/-- WHAT POINT `t` WRITES BACK is block `t` of the row losses of the arguments. -/
theorem flushed_eq (c : Dev nD) (hlab : ∀ i, (labels m c i).toNat < 1024) (t : Fin cfg0.N) :
    (dats m 0 c).flushed 2 t = ((cfg0.win 2).blk t).view.read (Elt Ideal) (perRow (scores m c) (labels m c)) := by
  have hx1 : ∀ y, (lblk m c t y).toNat < 1024 := fun y => by
    show ((((cfg0.win 1).blk t).view.read (Elt Ideal) (V m c (Pipeline.arrRef spec0 1))) y).toNat < 1024
    rw [View.read_apply]
    exact hlab _
  obtain ⟨-, -, -, e3⟩ := idx_facts t
  show (cfg0.win 2).cut (grid0.coords t) ((dats m 0 c).after 2 t) = _
  rw [after0_2]
  unfold outsAt0
  rw [out_eq c (grid0.coords t) (ms0_0 t) (hs0_0 t) (ms0_1 t) (hs0_1 t) (ms0_2 t) (hs0_2 t) (sblk m c t) (lblk m c t) hx1]
  funext j
  show blockLoss (sblk m c t) (lblk m c t) j = perRow (scores m c) (labels m c) (((cfg0.win 2).blk t).view.emb j)
  have hj : ((((cfg0.win 2).blk t).view.emb j) 0).val = 2048 * t.val + (j 0).val := by
    show win0_2.index t 0 * 2048 + 1 * (j 0).val = _
    rw [e3]; omega
  unfold blockLoss perRow
  refine congrArg₂ rowLoss (funext fun k => ?_) ?_
  · exact sblk_apply m c t _ _ hj rfl
  · exact lblk_apply m c t _ _ hj

/-- Every entry of the per-row array is in some point's block: entry `i` in block `i / 2048`. -/
theorem cover (i : S65536.Idx) :
    ∃ t : Fin cfg0.N, (cfg0.win 2).flush t = true ∧ i ∈ ((cfg0.win 2).blk t).view.set := by
  have hi : (i 0).val < 65536 := (i 0).isLt
  have hN : grid0.N = 32 := N_0
  have ht : (i 0).val / 2048 < grid0.N := by rw [hN]; omega
  obtain ⟨t, htv⟩ : ∃ t : Fin cfg0.N, t.val = (i 0).val / 2048 := ⟨⟨_, ht⟩, rfl⟩
  obtain ⟨-, -, -, e3⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 2048 ≤ (i 0).val ∧ (i 0).val < win0_2.index t 0 * 2048 + 2048
    rw [e3, htv]
    omega

/-- THE PER-ROW ARRAY after the region: the row losses of the arguments. -/
theorem final (c : Dev nD) (hlab : ∀ i, (labels m c i).toNat < 1024) :
    (dats m 0 c).arrAt 2 cfg0.N = perRow (scores m c) (labels m c) :=
  (dats m 0 c).arrAt_eq_of_cover 2 (perRow (scores m c) (labels m c)) (fun t _ => flushed_eq m c hlab t) cover

/-- The result buffer is no window's array. -/
theorem main_v2_rest : main_v2 ∈ Pipeline.restRefs sig spec0 :=
  Pipeline.mem_restRefs_of main_v2 rfl (fun w => by fin_cases w <;> decide)

/-- THE RUN, READ: the result ends at the mean of the row losses of the arguments, the arguments unchanged. -/
theorem run (hlab : ∀ c i, (labels m c i).toNat < 1024) :
    θ_run defs (onTc (τ := τ) (main (F := Ideal))) ⟨m, fun _ => 0, ρ⟩ fun r => ∀ c : Dev nD,
      r.2.mem ((c.tc : Thread nD τ).loc main_v2)
          = meanOf (perRow (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v2 main_v2_rest).trans ?_
    unfold Pipeline.afterTail₀
    show StableHlo.after hostOps1 _ (Proc.devRef .tc main_v2) = _
    after_results
    have hw : Pipeline.withArrays (cfgs 0).spec c (V0 m c) (fun w => (dats m 0 c).arrAt w (cfgs 0).N)
        (Proc.devRef .tc main_v0) = perRow (scores m c) (labels m c) :=
      (Pipeline.withArrays_arr spec0 launch0.win.arr_inj c _ _ 2).trans (final m c (hlab c))
    exact congrArg meanOf hw
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.ArrValue

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefRow.lean ====
/-
  What the reference computes for one row, at the ideal values.

  The reference gathers the labelled score with `take_along_axis` in its fill mode: the label is wrapped the NumPy
  way (a negative label counts from the end), tested against `[0, 1023]`, the gather clamps the wrapped label into
  the row, and a row whose wrapped label fails the test gets the fill value. Where every label names one of the
  1024 columns the wrap leaves the label as it is, the test is the bit 1 on every row, and the select under it is the
  gathered score `x l`. The negative statistic is the row's maximum from `-∞` of "if the label equals the column
  then `-∞` else the score". So each row's value is the row loss of `RowLoss.lean`.
-/
import proofs.«402806_j11012296147722_3_alg».proof.Proof.RefRead
import proofs.«402806_j11012296147722_3_alg».proof.Proof.RowLoss
import proofs.«402806_j11012296147722_3_alg».proof.Proof.LibIndexWrap
import Idealize.ShloMosaic.Lib.ValueIdx
import Idealize.ShloMosaic.Lib.Affine
import Idealize.ShloMosaic.PureOps.Ideal.Laws

noncomputable section

namespace Cert.ReferenceIdeal.RowValue

open Idealize.ShloMosaic Idealize.ShloMosaic.ValueIdx Idealize.ShloMosaic.IndexWrap
open Cert.ReferenceIdeal Cert.ReferenceIdeal.Gen Cert.ReferenceIdeal.ReadP Cert.RankLoss

/-! ## The gather of one column per row -/

section Gather

variable {α : Type}

/-- The gather's dimension numbers: the row is a batching axis, the column is looked up. -/
abbrev gd := gather_S65536x1024_S65536x1x1_S65536x1_n_1_0_0_1_2_11

/-- Row `r` of the gather reads row `r` of the table at the start index of row `r`, read signed and clamped into
    the row's 1024 columns. -/
theorem gather_apply (X : S65536x1024.Idx → α) (idx : IVec S65536x1x1 32) (r : Fin 65536) (u : Fin 1) :
    Host.gather gd X idx (ix2 r u)
      = X (ix2 r ⟨min (idx (ix3 r u (0 : Fin 1))).toInt.toNat 1023, by omega⟩) := by
  unfold Host.gather
  congr 1
  funext a
  match a with
  | ⟨0, _⟩ =>
    refine Fin.ext ?_
    show gd.start (ix2 r u) idx 0 + gd.batchCoord (ix2 r u) 0 + gd.offCoord (ix2 r u) 0 = r.val
    rw [GatherDims.start_batching _ _ _ _ (by decide), GatherDims.offCoord_eq_zero _ _ _ (by decide)]
    simp only [Nat.zero_add, Nat.add_zero]
    unfold GatherDims.batchCoord
    rw [dif_pos (show (0 : Fin S65536x1024.rank) ∈ gd.operandBatchingDims from by decide)]
    rfl
  | ⟨1, _⟩ =>
    refine Fin.ext ?_
    show gd.start (ix2 r u) idx 1 + gd.batchCoord (ix2 r u) 1 + gd.offCoord (ix2 r u) 1 = min (idx (ix3 r u (0 : Fin 1))).toInt.toNat 1023
    rw [GatherDims.batchCoord_eq_zero _ _ _ (by decide), GatherDims.offCoord_eq_zero _ _ _ (by decide)]
    simp only [Nat.add_zero]
    unfold GatherDims.start
    rw [dif_pos (show (1 : Fin S65536x1024.rank) ∈ gd.startIndexMap from List.mem_singleton.mpr rfl)]
    have hsi : gd.siIdx (ix2 r u) ⟨List.idxOf (1 : Fin S65536x1024.rank) gd.startIndexMap,
        List.idxOf_lt_length_iff.2 (List.mem_singleton.mpr rfl)⟩ = ix3 r u (0 : Fin 1) := by
      funext b; refine Fin.ext ?_
      match b with
      | ⟨0, _⟩ => rfl
      | ⟨1, _⟩ => rfl
      | ⟨2, _⟩ => rfl
    rw [hsi]
    rfl

end Gather

/-! ## The rows -/

/-- The score table and the label vector, as the reference's stages take them. -/
abbrev Scores := (⟨S65536x1024, .f32⟩ : BufTy).Contents (Elt Ideal)
abbrev Labels := (⟨S65536, .i32⟩ : BufTy).Contents (Elt Ideal)

variable (X : Scores) (lab : Labels)

/-- A label naming one of the 1024 columns is not negative, so the NumPy wrap leaves it as it is. -/
theorem wrap_self (s : BitVec 32) (hs : s.toNat < 1024) :
    Scalar.select (IntOp.cmpi .slt s 0#32) (IntOp.addi s 1024#32) s = s := by
  unfold Scalar.select
  have hz : (0#32 : BitVec 32).toInt = 0 := by decide
  have hi : s.toInt = (s.toNat : ℤ) := StableHlo.Predicate.toInt_eq_toNat_of_lt (by omega)
  rw [if_neg]
  intro h
  have := IntOp.cmpi_slt.1 h
  rw [hz, hi] at this
  omega

/-- The wrapped start index of row `r` is the row's label. -/
theorem start_apply (hlab : ∀ r, (lab r).toNat < 1024) (r : Fin 65536) (u v : Fin 1) :
    val_main_call0_v5 (F := Ideal) lab (ix3 r u v) = lab (ix1 r) := by
  have e : idx_main_v0 (idx_main_call0_v5 (ix3 r u v)) = ix1 r := by
    funext a
    match a with
    | ⟨0, _⟩ =>
      refine Fin.ext ?_
      show ((r.val * 1 + u.val) * 1 + v.val) / 1 = r.val
      have := u.isLt; have := v.isLt; omega
  rw [val_main_call0_v5_apply, val_main_call0_v4_apply, val_main_call0_v1_apply, val_main_call0_v3_apply,
    val_main_v0_apply, val_main_call0_v0_apply, val_main_call0_c_apply, val_main_call0_v2_apply, val_main_call0_c_0_apply, e]
  exact wrap_self _ (hlab _)

/-- The range test of the wrapped start index is the bit 1 on every row. -/
theorem inrange_apply (hlab : ∀ r, (lab r).toNat < 1024) (i : S65536x1x1.Idx) :
    val_main_call0_v11 (F := Ideal) lab i = 1#1 := by
  obtain ⟨r, u, v, rfl⟩ : ∃ (r : Fin 65536) (u v : Fin 1), i = ix3 r u v := ⟨i 0, i 1, i 2, eq_ix3 i⟩
  rw [val_main_call0_v11_apply, val_main_call0_v7_apply, val_main_call0_v10_apply, val_main_call0_v6_apply,
    val_main_call0_c_2_apply, val_main_call0_v9_apply, val_main_call0_v8_apply, val_main_call0_c_1_apply,
    start_apply lab hlab]
  have hs := hlab (ix1 r)
  have hi : (lab (ix1 r)).toInt = ((lab (ix1 r)).toNat : ℤ) := StableHlo.Predicate.toInt_eq_toNat_of_lt (by omega)
  have hz : (0#32 : BitVec 32).toInt = 0 := by decide
  have hk : (1023#32 : BitVec 32).toInt = 1023 := by decide
  exact IntOp.andi_eq_one.2 ⟨IntOp.cmpi_sge.2 (by rw [hz, hi]; omega), IntOp.cmpi_sle.2 (by rw [hk, hi]; omega)⟩

/-- So the mask the select reads is 1 on every row. -/
theorem mask_ones (hlab : ∀ r, (lab r).toNat < 1024) (j : S65536x1.Idx) :
    val_main_call0_v12 (F := Ideal) lab j = 1#1 := by
  unfold val_main_call0_v12
  exact reduce_andi_of_all _ _ _ _ (fun _ => rfl) (inrange_apply lab hlab) j

/-- The gathered score of row `r` is the score at the row's label. -/
theorem pos_apply (hlab : ∀ r, (lab r).toNat < 1024) (r : Fin 65536) :
    val_main_v2 (F := Ideal) X lab (ix1 r) = rowPos (fun k => X (ix2 r k)) (lab (ix1 r)) := by
  have e : idx_main_v2 (ix1 r) = ix2 r (0 : Fin 1) := by
    funext a
    match a with
    | ⟨0, _⟩ => exact Fin.ext (Nat.div_one _)
    | ⟨1, _⟩ => rfl
  rw [val_main_v2_apply, val_main_v1_apply, mask_ones lab hlab, e, ValueIdx.select_one]
  unfold val_main_call0_v13
  rw [gather_apply]
  unfold rowPos
  refine congrArg X (congrArg (ix2 r) (Fin.ext ?_))
  show min (val_main_call0_v5 (F := Ideal) lab (ix3 r 0 0)).toInt.toNat 1023 = min (lab (ix1 r)).toInt.toNat 1023
  rw [start_apply lab hlab]

/-- The masked maximum of row `r` is the largest score off the row's label. -/
theorem neg_apply (r : Fin 65536) :
    val_main_v16 (F := Ideal) X lab (ix1 r) = rowNeg (fun k => X (ix2 r k)) (lab (ix1 r)) := by
  have hR : S65536x1024.Reduces [1] S65536 := by decide
  unfold val_main_v16
  rw [Host.reduce_eq_fold_single FloatOps.maximumf _ _ reducesTo_S65536x1024_S65536_d1 hR h_S_ (ix1 r)]
  unfold rowNeg
  show (Finset.univ : Finset (Fin 1024)).fold max (Ideal.ofBits .f32 0xFF800000#32)
    (fun k => val_main_v15 (F := Ideal) X lab (hR.lift (ix1 r) k)) = _
  rw [ofBits_neg_inf]
  refine congrArg (fun f : Fin 1024 → EReal => (Finset.univ : Finset (Fin 1024)).fold max ⊥ f) (funext fun (k : Fin 1024) => ?_)
  have e : hR.lift (ix1 r) k = ix2 r k := by
    funext a
    match a with
    | ⟨0, _⟩ => exact Fin.ext rfl
    | ⟨1, _⟩ => exact Fin.ext rfl
  have e1 : idx_main_v9 (idx_main_v12 (ix2 r k)) = ix1 r := by
    funext a
    match a with
    | ⟨0, _⟩ => rfl
  rw [e, val_main_v15_apply, val_main_v14_apply, val_main_v12_apply, val_main_v9_apply, val_main_v13_apply,
    val_main_v11_apply, val_main_v10_apply, val_main_call1_v1_apply, val_main_call1_v0_apply, val_main_cst_1_apply, e1]
  show Scalar.select (IntOp.cmpi .eq (lab (ix1 r)) (colWord k)) (Ideal.ofBits .f32 0xFF800000#32) (X (ix2 r k)) = _
  rw [select_eq, ofBits_neg_inf]
  by_cases h : colWord k = lab (ix1 r)
  · rw [if_pos h.symm, if_pos h]
  · rw [if_neg (fun e' => h e'.symm), if_neg h]

/-- Row `r` of the per-row vector the reference averages is the row's loss. -/
theorem row_apply (hlab : ∀ r, (lab r).toNat < 1024) (r : Fin 65536) :
    val_main_v26 (F := Ideal) X lab (ix1 r) = rowLoss (fun k => X (ix2 r k)) (lab (ix1 r)) := by
  rw [val_main_v26_apply, val_main_v8_apply, val_main_v7_apply, val_main_v6_apply, val_main_v5_apply, val_main_cst_0_apply,
    val_main_v4_apply, val_main_v3_apply, val_main_cst_apply, pos_apply X lab hlab,
    val_main_v25_apply, val_main_v24_apply, val_main_v23_apply, val_main_v22_apply, val_main_cst_5_apply,
    val_main_v21_apply, val_main_v20_apply, val_main_cst_4_apply, val_main_v19_apply, val_main_v18_apply,
    val_main_v17_apply, val_main_c_apply, val_main_call2_v0_apply, val_main_cst_3_apply, neg_apply X lab, select_label_zero]
  rfl

/-- THE REFERENCE'S RESULT: the mean of the row losses of its arguments. -/
theorem result_eq (hlab : ∀ r, (lab r).toNat < 1024) :
    val_main_v28 (F := Ideal) X lab = meanOf (perRow X lab) := by
  have h26 : val_main_v26 (F := Ideal) X lab = perRow X lab := funext fun i => by
    obtain ⟨r, rfl⟩ : ∃ r : Fin 65536, i = ix1 r := ⟨i 0, eq_ix1 i⟩
    exact row_apply X lab hlab r
  unfold val_main_v28 val_main_v27
  rw [h26]
  rfl

end Cert.ReferenceIdeal.RowValue

end
-- ==== Proof.lean ====
/-
  The ranking loss kernel against its jnp reference: `Cert.Claim`.

  Both programs compute, for 65536 rows of 1024 scores and one class label per row, the mean over the rows of
      log(1 + exp(2 (5/2 - s⁺))) + log(1 + exp(2 (1/2 + s⁻))),
  `s⁺` the score of the labelled column and `s⁻` the largest score off it (0 when the label is column 0). The kernel
  gets `s⁺` as the sum of the row against the label's column indicator and `s⁻` as the row maximum after adding the
  indicator times a sentinel that the idealization reads as `-∞`; the reference gathers `s⁺` and masks with `-∞` under
  a select. On the extended reals the two spellings are one function of the row (`RowLoss.lean`) wherever the label
  names one of the 1024 columns, which the precondition says of every label. The kernel's per-row array is read off
  its generated frame run block by block (`KernelChunk`, `KernelBlock`, `KernelArr`), the reference's per-row vector
  off its run one operation at a time (`RefRow`), and both end with the same host mean.
  The frames of the two kernel programs are the generated ones; the reference's frame is its run with the result
  dropped; each of the four ledger entries is the named constant's statement.
-/
import proofs.«402806_j11012296147722_3_alg».proof.Defs
import proofs.«402806_j11012296147722_3_alg».proof.Proof.Gen.Kernel
import proofs.«402806_j11012296147722_3_alg».proof.Proof.Gen.Kernel.Skeleton
import proofs.«402806_j11012296147722_3_alg».proof.Proof.Gen.Kernel.Launch
import proofs.«402806_j11012296147722_3_alg».proof.Proof.Gen.Kernel.Points
import proofs.«402806_j11012296147722_3_alg».proof.Proof.Gen.Kernel.Frame
import proofs.«402806_j11012296147722_3_alg».proof.Proof.Gen.KernelIdeal
import proofs.«402806_j11012296147722_3_alg».proof.Proof.Gen.KernelIdeal.Skeleton
import proofs.«402806_j11012296147722_3_alg».proof.Proof.Gen.KernelIdeal.Launch
import proofs.«402806_j11012296147722_3_alg».proof.Proof.Gen.KernelIdeal.Points
import proofs.«402806_j11012296147722_3_alg».proof.Proof.Gen.KernelIdeal.Frame
import proofs.«402806_j11012296147722_3_alg».proof.Proof.Gen.ReferenceIdeal
import proofs.«402806_j11012296147722_3_alg».proof.Proof.Gen.Pre_finite_inputs
import proofs.«402806_j11012296147722_3_alg».proof.Proof.PreRange
import proofs.«402806_j11012296147722_3_alg».proof.Proof.KernelArr
import proofs.«402806_j11012296147722_3_alg».proof.Proof.RefRun
import proofs.«402806_j11012296147722_3_alg».proof.Proof.RefRead
import proofs.«402806_j11012296147722_3_alg».proof.Proof.RefRow
import Idealize.ShloMosaic.Adequacy
import Idealize.ShloMosaic.Init

noncomputable section

namespace Cert.Proof

open Idealize.ShloMosaic Idealize.SL.Sem Cert.RankLoss

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- One ledger entry: the table gives the sentinel's name the value `-∞`, and the printed constant is that value at the
    ideal instance. The kernel names its sentinel at four sites, once per slab. -/
theorem neg_big_statement : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨neg_big_statement, neg_big_statement, neg_big_statement, neg_big_statement⟩

/-- From memories agreeing on the arguments both programs end at the mean of the row losses of those arguments. -/
theorem algebraic : Cert.algebraic_KernelIdeal_ReferenceIdeal := by
  intro m ρ m' ρ' hpre hagree
  have hlab : ∀ c i, (Cert.KernelIdeal.ArrValue.labels m c i).toNat < 1024 := fun c i =>
    Cert.Pre_finite_inputs.Range.label_range _ _ (hpre c) i
  refine ⟨fun c => meanOf (perRow (m ((c.tc : Thread Cert.KernelIdeal.nD Cert.KernelIdeal.τ).loc Cert.KernelIdeal.main_arg0))
    (m ((c.tc : Thread Cert.KernelIdeal.nD Cert.KernelIdeal.τ).loc Cert.KernelIdeal.main_arg1))),
    Cert.KernelIdeal.ArrValue.run m ρ hlab, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v28_eq, (hagree c).1, (hagree c).2]
  exact Cert.ReferenceIdeal.RowValue.result_eq _ _ (hlab c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
